-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2000000 : Shape := ⟨2, ![3, 2000000]⟩
abbrev S16x3x3 : Shape := ⟨3, ![16, 3, 3]⟩
abbrev S16x3 : Shape := ⟨2, ![16, 3]⟩
abbrev S16x2 : Shape := ⟨2, ![16, 2]⟩
abbrev S16x2000000 : Shape := ⟨2, ![16, 2000000]⟩
abbrev S_ : Shape := ⟨0, ![]⟩
abbrev S16x3x2000000 : Shape := ⟨3, ![16, 3, 2000000]⟩
abbrev S16x3x1 : Shape := ⟨3, ![16, 3, 1]⟩
abbrev S16x1x2000000 : Shape := ⟨3, ![16, 1, 2000000]⟩

class Facts : Prop where
  bcast_S_S3x2000000 : S_.BroadcastsInDim S3x2000000 (![] : Fin 0 → Fin S3x2000000.rank)
  reducesTo_S3x2000000_S_d0_1 : S3x2000000.ReducesTo [0, 1] S_
  h_S_ : 0 < S_.numel
  bcast_S_S16x3x3 : S_.BroadcastsInDim S16x3x3 (![] : Fin 0 → Fin S16x3x3.rank)
  reducesTo_S16x3x3_S_d0_1_2 : S16x3x3.ReducesTo [0, 1, 2] S_
  bcast_S_S16x3 : S_.BroadcastsInDim S16x3 (![] : Fin 0 → Fin S16x3.rank)
  reducesTo_S16x3_S_d0_1 : S16x3.ReducesTo [0, 1] S_
  bcast_S_S16x2 : S_.BroadcastsInDim S16x2 (![] : Fin 0 → Fin S16x2.rank)
  reducesTo_S16x2_S_d0_1 : S16x2.ReducesTo [0, 1] S_
  bcast_S16x3_S16x3x1_0_1 : S16x3.BroadcastsInDim S16x3x1 (![0, 1] : Fin 2 → Fin S16x3x1.rank)
  bcast_S16x3x1_S16x3x2000000_0_1_2 : S16x3x1.BroadcastsInDim S16x3x2000000 (![0, 1, 2] : Fin 3 → Fin S16x3x2000000.rank)
  slices_S16x3x2000000_S16x1x2000000_0_2_0 : S16x3x2000000.Slices ![0, 2, 0] S16x1x2000000
  bcast_S_S16x1x2000000 : S_.BroadcastsInDim S16x1x2000000 (![] : Fin 0 → Fin S16x1x2000000.rank)
  reducesTo_S16x1x2000000_S_d0_1_2 : S16x1x2000000.ReducesTo [0, 1, 2] S_
  dot_S16x3x3_S3x2000000_S16x3x2000000_2_0_01_1_n_n_wf : DotDims.WF S16x3x3 S3x2000000 S16x3x2000000 [2] [0] [0, 1] [1] [] []

variable [Facts]

def dot_S16x3x3_S3x2000000_S16x3x2000000_2_0_01_1_n_n : DotDims S16x3x3 S3x2000000 S16x3x2000000 where
  lhsContracting := [2]
  rhsContracting := [0]
  lhsNonContracting := [0, 1]
  rhsNonContracting := [1]
  lhsBatch := []
  rhsBatch := []
  wf := dot_S16x3x3_S3x2000000_S16x3x2000000_2_0_01_1_n_n_wf
def fn_part1 {F : FTy → Type} [FloatOps F] (main_arg0 : FVec F S3x2000000 .f32) (main_arg1 : FVec F S16x3x3 .f32) (main_arg2 : FVec F S16x3 .f32) (main_arg4 : FVec F S16x2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S16x2 .f32 := Host.absf main_arg4
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S16x3x2000000 .f32 := (fun l r => Host.dotGeneral dot_S16x3x3_S3x2000000_S16x3x2000000_2_0_01_1_n_n none l r) main_arg1 main_arg0
  let main_v25 : FVec F S16x3x1 .f32 := broadcastInDim S16x3x1 ![0, 1] bcast_S16x3_S16x3x1_0_1 main_arg2
  let main_v26 : FVec F S16x3x2000000 .f32 := broadcastInDim S16x3x2000000 ![0, 1, 2] bcast_S16x3x1_S16x3x2000000_0_1_2 main_v25
  let main_v27 : FVec F S16x3x2000000 .f32 := addf main_v24 main_v26
  let main_v28 : FVec F S16x1x2000000 .f32 := (extractStridedSlice S16x1x2000000 ![0, 2, 0] · slices_S16x3x2000000_S16x1x2000000_0_2_0) main_v27
  let main_cst_8 : FVec F S_ .f32 := constant S_ .f32 0x00000000#32
  let main_v29 : FVec F S16x1x2000000 .f32 := broadcastInDim S16x1x2000000 ![] bcast_S_S16x1x2000000 main_cst_8
  let main_v30 : IVec S16x1x2000000 1 := cmpf .une main_v28 main_v29
  let main_c_9 : IVec S_ 1 := constantI S_ 1 1#1
  let main_v31 : IVec S_ 1 := (fun x v => Host.reduce IntOp.andi x v reducesTo_S16x1x2000000_S_d0_1_2 h_S_) main_v30 main_c_9
  let main_v32 : IVec S_ 1 := andi main_v23 main_v31
  main_v32

def fn {F : FTy → Type} [FloatOps F] (main_arg0 : FVec F S3x2000000 .f32) (main_arg1 : FVec F S16x3x3 .f32) (main_arg2 : FVec F S16x3 .f32) (main_arg3 : FVec F S16x2 .f32) (main_arg4 : FVec F S16x2 .f32) (main_arg5 : IVec S16x2000000 32) : IVec S_ 1 :=
  let main_v0 : FVec F S3x2000000 .f32 := Host.absf main_arg0
  let main_cst : FVec F S_ .f32 := constant S_ .f32 0x7F800000#32
  let main_v1 : FVec F S3x2000000 .f32 := broadcastInDim S3x2000000 ![] bcast_S_S3x2000000 main_cst
  let main_v2 : IVec S3x2000000 1 := cmpf .olt main_v0 main_v1
  let main_c : IVec S_ 1 := constantI S_ 1 1#1
  let main_v3 : IVec S_ 1 := (fun x v => Host.reduce IntOp.andi x v reducesTo_S3x2000000_S_d0_1 h_S_) main_v2 main_c
  let main_v4 : FVec F S16x3x3 .f32 := Host.absf main_arg1
  let main_cst_0 : FVec F S_ .f32 := constant S_ .f32 0x7F800000#32
  let main_v5 : FVec F S16x3x3 .f32 := broadcastInDim S16x3x3 ![] bcast_S_S16x3x3 main_cst_0
  let main_v6 : IVec S16x3x3 1 := cmpf .olt main_v4 main_v5
  let main_c_1 : IVec S_ 1 := constantI S_ 1 1#1
  let main_v7 : IVec S_ 1 := (fun x v => Host.reduce IntOp.andi x v reducesTo_S16x3x3_S_d0_1_2 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg0 main_arg1 main_arg2 main_arg4 main_v13 main_v16
-- ==== Kernel.lean ====
abbrev S3x2000000 : Shape := ⟨2, ![3, 2000000]⟩
abbrev S16x3x3 : Shape := ⟨3, ![16, 3, 3]⟩
abbrev S16x3 : Shape := ⟨2, ![16, 3]⟩
abbrev S16x2 : Shape := ⟨2, ![16, 2]⟩
abbrev S16x2000000 : Shape := ⟨2, ![16, 2000000]⟩
abbrev S16x1x3 : Shape := ⟨3, ![16, 1, 3]⟩
abbrev S48x3 : Shape := ⟨2, ![48, 3]⟩
abbrev S16x2x2000000 : Shape := ⟨3, ![16, 2, 2000000]⟩
abbrev S3x16000 : Shape := ⟨2, ![3, 16000]⟩
abbrev S16x2x16000 : Shape := ⟨3, ![16, 2, 16000]⟩
abbrev S48x16000 : Shape := ⟨2, ![48, 16000]⟩
abbrev S16x16000 : Shape := ⟨2, ![16, 16000]⟩
abbrev S16x1 : Shape := ⟨2, ![16, 1]⟩
abbrev S16x1x16000 : Shape := ⟨3, ![16, 1, 16000]⟩
abbrev S16x2000000x2 : Shape := ⟨3, ![16, 2000000, 2]⟩
abbrev S32000000x2 : Shape := ⟨2, ![32000000, 2]⟩

abbrev nBuf : Space → Nat
  | .hbm => 16
  | .vmem => 8
  | .smem => 0
  | _ => 0

abbrev bufTy : (tb : Table) → Fin (tcTables nBuf tb) → BufTy
  | .hbm, ⟨0, _⟩ => ⟨S3x2000000, .f32⟩
  | .hbm, ⟨1, _⟩ => ⟨S16x3x3, .f32⟩
  | .hbm, ⟨2, _⟩ => ⟨S16x3, .f32⟩
  | .hbm, ⟨3, _⟩ => ⟨S16x2, .f32⟩
  | .hbm, ⟨4, _⟩ => ⟨S16x2, .f32⟩
  | .hbm, ⟨5, _⟩ => ⟨S16x2000000, .i32⟩
  | .hbm, ⟨6, _⟩ => ⟨S16x1x3, .f32⟩
  | .hbm, ⟨7, _⟩ => ⟨S16x3, .f32⟩
  | .hbm, ⟨8, _⟩ => ⟨S16x1x3, .f32⟩
  | .hbm, ⟨9, _⟩ => ⟨S16x3, .f32⟩
  | .hbm, ⟨10, _⟩ => ⟨S16x1x3, .f32⟩
  | .hbm, ⟨11, _⟩ => ⟨S16x3, .f32⟩
  | .hbm, ⟨12, _⟩ => ⟨S48x3, .f32⟩
  | .hbm, ⟨13, _⟩ => ⟨S16x2x2000000, .f32⟩
  | .hbm, ⟨14, _⟩ => ⟨S16x2000000x2, .f32⟩
  | .hbm, ⟨15, _⟩ => ⟨S32000000x2, .f32⟩
  | .local _ .vmem, ⟨0, _⟩ => ⟨S3x16000, .f32⟩
  | .local _ .vmem, ⟨1, _⟩ => ⟨S3x16000, .f32⟩
  | .local _ .vmem, ⟨2, _⟩ => ⟨S48x3, .f32⟩
  | .local _ .vmem, ⟨3, _⟩ => ⟨S16x3, .f32⟩
  | .local _ .vmem, ⟨4, _⟩ => ⟨S16x2, .f32⟩
  | .local _ .vmem, ⟨5, _⟩ => ⟨S16x2, .f32⟩
  | .local _ .vmem, ⟨6, _⟩ => ⟨S16x2x16000, .f32⟩
  | .local _ .vmem, ⟨7, _⟩ => ⟨S16x2x16000, .f32⟩
  | _, _ => ⟨S3x2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x2x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S16x3x3_S16x1x3_0_0_0 : S16x3x3.Slices ![0, 0, 0] S16x1x3
  shapeCasts_S16x1x3_S16x3 : S16x1x3.ShapeCasts S16x3
  slices_S16x3x3_S16x1x3_0_1_0 : S16x3x3.Slices ![0, 1, 0] S16x1x3
  slices_S16x3x3_S16x1x3_0_2_0 : S16x3x3.Slices ![0, 2, 0] S16x1x3
  concatenates_S16x3_S16x3_S16x3_S48x3_d0 : Shape.Concatenates [S16x3, S16x3, S16x3] S48x3 0
  inb_S3x16000_S3x16000_0_0 : ∀ a, (![0, 0] : Fin 2 → Nat) a + S3x16000.size a ≤ S3x16000.size a
  h_S3x16000 : 0 < S3x16000.numel
  inb_S48x3_S48x3_0_0 : ∀ a, (![0, 0] : Fin 2 → Nat) a + S48x3.size a ≤ S48x3.size a
  h_S48x3 : 0 < S48x3.numel
  shapeCasts_S48x3_S48x3 : S48x3.ShapeCasts S48x3
  inb_S16x3_S16x3_0_0 : ∀ a, (![0, 0] : Fin 2 → Nat) a + S16x3.size a ≤ S16x3.size a
  h_S16x3 : 0 < S16x3.numel
  inb_S16x2_S16x2_0_0 : ∀ a, (![0, 0] : Fin 2 → Nat) a + S16x2.size a ≤ S16x2.size a
  h_S16x2 : 0 < S16x2.numel
  slices_S48x16000_o0_0_S16x16000 : S48x16000.Slices ![0, 0] S16x16000
  slices_S16x3_o0_0_S16x1 : S16x3.Slices ![0, 0] S16x1
  broadcasts_S16x1_S16x16000 : S16x1.Broadcasts S16x16000
  slices_S48x16000_o16_0_S16x16000 : S48x16000.Slices ![16, 0] S16x16000
  slices_S16x3_o0_1_S16x1 : S16x3.Slices ![0, 1] S16x1
  slices_S48x16000_o32_0_S16x16000 : S48x16000.Slices ![32, 0] S16x16000
  slices_S16x3_o0_2_S16x1 : S16x3.Slices ![0, 2] S16x1
  slices_S16x2_o0_0_S16x1 : S16x2.Slices ![0, 0] S16x1
  slices_S16x2_o0_1_S16x1 : S16x2.Slices ![0, 1] S16x1
  inb_S16x2x16000_S16x1x16000_0_0_0 : ∀ a, (![0, 0, 0] : Fin 3 → Nat) a + S16x1x16000.size a ≤ S16x2x16000.size a
  h_S16x1x16000 : 0 < S16x1x16000.numel
  shapeCasts_S16x1x16000_S16x16000 : S16x1x16000.ShapeCasts S16x16000
  shapeCasts_S16x16000_S16x1x16000 : S16x16000.ShapeCasts S16x1x16000
  inb_S16x2x16000_S16x1x16000_0_1_0 : ∀ a, (![0, 1, 0] : Fin 3 → Nat) a + S16x1x16000.size a ≤ S16x2x16000.size a
  transposes_S16x2x2000000_S16x2000000x2_0_2_1 : S16x2x2000000.Transposes [0, 2, 1] S16x2000000x2
  shapeCasts_S16x2000000x2_S32000000x2 : S16x2000000x2.ShapeCasts S32000000x2
  dot_S48x3_S3x16000_S48x16000_1_0_0_1_n_n_wf : DotDims.WF S48x3 S3x16000 S48x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x2000000.size a
  hwx0_0 : ∀ i : grid0.Coords, EltTy.bits .f32 = 32 ∨ (Rect.block (s := S3x2000000) S3x16000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x3.size a ≤ S48x3.size a
  hwx0_1 : ∀ i : grid0.Coords, EltTy.bits .f32 = 32 ∨ (Rect.block (s := S48x3) S48x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x3.size a ≤ S16x3.size a
  hwx0_2 : ∀ i : grid0.Coords, EltTy.bits .f32 = 32 ∨ (Rect.block (s := S16x3) S16x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S16x2.size a
  hwx0_3 : ∀ i : grid0.Coords, EltTy.bits .f32 = 32 ∨ (Rect.block (s := S16x2) S16x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x2.size a ≤ S16x2.size a
  hwx0_4 : ∀ i : grid0.Coords, EltTy.bits .f32 = 32 ∨ (Rect.block (s := S16x2) S16x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2x16000.size a ≤ S16x2x2000000.size a
  hwx0_5 : ∀ i : grid0.Coords, EltTy.bits .f32 = 32 ∨ (Rect.block (s := S16x2x2000000) S16x2x16000.size (cc0_transform_5 i) (hinb0_5 i)).WholeWords (EltTy.packing .f32)

variable [Facts₀]

def dot_S48x3_S3x16000_S48x16000_1_0_0_1_n_n : DotDims S48x3 S3x16000 S48x16000 where
  lhsContracting := [1]
  rhsContracting := [0]
  lhsNonContracting := [0]
  rhsNonContracting := [1]
  lhsBatch := []
  rhsBatch := []
  wf := dot_S48x3_S3x16000_S48x16000_1_0_0_1_n_n_wf

abbrev win0_0 : Pipeline.Window sig grid0 :=
  Pipeline.Window.ofSpec (Memref.whole main_arg0) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S48x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x2x16000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3x2000000 : Shape := ⟨2, ![3, 2000000]⟩
abbrev S16x3x3 : Shape := ⟨3, ![16, 3, 3]⟩
abbrev S16x3 : Shape := ⟨2, ![16, 3]⟩
abbrev S16x2 : Shape := ⟨2, ![16, 2]⟩
abbrev S16x2000000 : Shape := ⟨2, ![16, 2000000]⟩
abbrev S16x3x2000000 : Shape := ⟨3, ![16, 3, 2000000]⟩
abbrev S16x3x1 : Shape := ⟨3, ![16, 3, 1]⟩
abbrev S16x2x2000000 : Shape := ⟨3, ![16, 2, 2000000]⟩
abbrev S16x1x2000000 : Shape := ⟨3, ![16, 1, 2000000]⟩
abbrev S16x2x1 : Shape := ⟨3, ![16, 2, 1]⟩
abbrev S16x2000000x2 : Shape := ⟨3, ![16, 2000000, 2]⟩
abbrev S32000000x2 : Shape := ⟨2, ![32000000, 2]⟩

abbrev nBuf : Space → Nat
  | .hbm => 22
  | .vmem => 0
  | .smem => 0
  | _ => 0

abbrev bufTy : (tb : Table) → Fin (tcTables nBuf tb) → BufTy
  | .hbm, ⟨0, _⟩ => ⟨S3x2000000, .f32⟩
  | .hbm, ⟨1, _⟩ => ⟨S16x3x3, .f32⟩
  | .hbm, ⟨2, _⟩ => ⟨S16x3, .f32⟩
  | .hbm, ⟨3, _⟩ => ⟨S16x2, .f32⟩
  | .hbm, ⟨4, _⟩ => ⟨S16x2, .f32⟩
  | .hbm, ⟨5, _⟩ => ⟨S16x2000000, .i32⟩
  | .hbm, ⟨6, _⟩ => ⟨S16x3x2000000, .f32⟩
  | .hbm, ⟨7, _⟩ => ⟨S16x3x1, .f32⟩
  | .hbm, ⟨8, _⟩ => ⟨S16x3x2000000, .f32⟩
  | .hbm, ⟨9, _⟩ => ⟨S16x3x2000000, .f32⟩
  | .hbm, ⟨10, _⟩ => ⟨S16x2x2000000, .f32⟩
  | .hbm, ⟨11, _⟩ => ⟨S16x1x2000000, .f32⟩
  | .hbm, ⟨12, _⟩ => ⟨S16x2x2000000, .f32⟩
  | .hbm, ⟨13, _⟩ => ⟨S16x2x2000000, .f32⟩
  | .hbm, ⟨14, _⟩ => ⟨S16x2x1, .f32⟩
  | .hbm, ⟨15, _⟩ => ⟨S16x2x2000000, .f32⟩
  | .hbm, ⟨16, _⟩ => ⟨S16x2x2000000, .f32⟩
  | .hbm, ⟨17, _⟩ => ⟨S16x2x1, .f32⟩
  | .hbm, ⟨18, _⟩ => ⟨S16x2x2000000, .f32⟩
  | .hbm, ⟨19, _⟩ => ⟨S16x2x2000000, .f32⟩
  | .hbm, ⟨20, _⟩ => ⟨S16x2000000x2, .f32⟩
  | .hbm, ⟨21, _⟩ => ⟨S32000000x2, .f32⟩
  | _, _ => ⟨S3x2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S16x3_S16x3x1_0_1 : S16x3.BroadcastsInDim S16x3x1 (![0, 1] : Fin 2 → Fin S16x3x1.rank)
  bcast_S16x3x1_S16x3x2000000_0_1_2 : S16x3x1.BroadcastsInDim S16x3x2000000 (![0, 1, 2] : Fin 3 → Fin S16x3x2000000.rank)
  slices_S16x3x2000000_S16x2x2000000_0_0_0 : S16x3x2000000.Slices ![0, 0, 0] S16x2x2000000
  slices_S16x3x2000000_S16x1x2000000_0_2_0 : S16x3x2000000.Slices ![0, 2, 0] S16x1x2000000
  bcast_S16x1x2000000_S16x2x2000000_0_1_2 : S16x1x2000000.BroadcastsInDim S16x2x2000000 (![0, 1, 2] : Fin 3 → Fin S16x2x2000000.rank)
  bcast_S16x2_S16x2x1_0_1 : S16x2.BroadcastsInDim S16x2x1 (![0, 1] : Fin 2 → Fin S16x2x1.rank)
  bcast_S16x2x1_S16x2x2000000_0_1_2 : S16x2x1.BroadcastsInDim S16x2x2000000 (![0, 1, 2] : Fin 3 → Fin S16x2x2000000.rank)
  transposes_S16x2x2000000_S16x2000000x2_0_2_1 : S16x2x2000000.Transposes [0, 2, 1] S16x2000000x2
  shapeCasts_S16x2000000x2_S32000000x2 : S16x2000000x2.ShapeCasts S32000000x2
  dot_S16x3x3_S3x2000000_S16x3x2000000_2_0_01_1_n_n_wf : DotDims.WF S16x3x3 S3x2000000 S16x3x2000000 [2] [0] [0, 1] [1] [] []

variable [Facts₀]

def dot_S16x3x3_S3x2000000_S16x3x2000000_2_0_01_1_n_n : DotDims S16x3x3 S3x2000000 S16x3x2000000 where
  lhsContracting := [2]
  rhsContracting := [0]
  lhsNonContracting := [0, 1]
  rhsNonContracting := [1]
  lhsBatch := []
  rhsBatch := []
  wf := dot_S16x3x3_S3x2000000_S16x3x2000000_2_0_01_1_n_n_wf

class Facts : Prop extends Facts₀ where

variable [Facts]
-- ==== Proof.FrameK.lean ====
/-
  The run of the printed program's one launch, and its frame (the same text as for the idealized program: the two print alike, and nothing here depends on what a float is).

  @main is seven host operations (three row slices of the rotations, each flattened to a 16 x 3 matrix, stacked into the
  48 x 3 matrix whose rows 16 k + n are row k of camera n), one launch over 125 tiles of 16000 points, and two host
  operations (a transpose and a flattening) on the launch's result. At tile t the body reads the tile's 3 x 16000 block
  of points, the whole stacked matrix and the three small per-camera tables, and fills its 16 x 2 x 16000 output block by
  two stores: plane 0 (the u coordinates) and plane 1 (the v coordinates). The two planes tile the block, so what the
  block holds afterwards is the two payloads side by side, whatever it held before (the body also loads the output block
  before each store and uses neither value).

  Stated here: what the arrays hold when the launch starts (V), each window's block at a tile (iblk), the output block
  after the body as a function of the five input blocks (outBlock), the body's triple, the launch's proof data, the run
  (run_main) with every array named afterwards, and the frame: the six argument arrays end as they started.
-/
import proofs.«403066_j19713899889207_3_alg».proof.Proof.Gen.Kernel.Launch
import proofs.«403066_j19713899889207_3_alg».proof.Proof.Gen.Kernel.Skeleton
import proofs.«403066_j19713899889207_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core c's buffers hold when the launch starts: the memory after the seven host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the launch's six arrays (the transpose writes main_v8, the flattening main_v9). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)

/-- No host operation before the launch writes buffer b when b is none of main_v0 … main_v6. -/
theorem V_of_ne (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_ne m c main_arg0 (by decide) (by decide) (by decide) (by decide) (by decide) (by decide) (by decide)
theorem V_main_arg1 (c : Dev nD) : V m c main_arg1 = m ((c : Thread nD τ).loc main_arg1) :=
  V_of_ne m c main_arg1 (by decide) (by decide) (by decide) (by decide) (by decide) (by decide) (by decide)
theorem V_main_arg2 (c : Dev nD) : V m c main_arg2 = m ((c : Thread nD τ).loc main_arg2) :=
  V_of_ne m c main_arg2 (by decide) (by decide) (by decide) (by decide) (by decide) (by decide) (by decide)
theorem V_main_arg3 (c : Dev nD) : V m c main_arg3 = m ((c : Thread nD τ).loc main_arg3) :=
  V_of_ne m c main_arg3 (by decide) (by decide) (by decide) (by decide) (by decide) (by decide) (by decide)
theorem V_main_arg4 (c : Dev nD) : V m c main_arg4 = m ((c : Thread nD τ).loc main_arg4) :=
  V_of_ne m c main_arg4 (by decide) (by decide) (by decide) (by decide) (by decide) (by decide) (by decide)
theorem V_main_arg5 (c : Dev nD) : V m c main_arg5 = m ((c : Thread nD τ).loc main_arg5) :=
  V_of_ne m c main_arg5 (by decide) (by decide) (by decide) (by decide) (by decide) (by decide) (by decide)

/-- No host operation after the launch writes buffer b when b is neither main_v8 nor main_v9 and no array of the launch:
    it ends at what it held when the launch started. -/
theorem W_of_ne (dats : (p : Fin _) → (c : Dev nD) → Dat τ (Elt F) Unit ℕ (UR sig nD τ) ℕ (cfgs p) c) (c : Dev nD) (b : Ref sig .tc)
    (h8 : b ≠ main_v8) (h9 : b ≠ main_v9) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h8, StableHlo.devRef_ne_of_ne h9⟩)),
    Pipeline.withArrays_of_ne _ c (V0 m c) _ b (by exact hw)]

/-! ## The windows' blocks -/

/-- Window w's block at tile t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every tile, fetched there or not (a window whose block
    index does not move is fetched once and stays): one statement per input window, the point tile's and the four tables'. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- For any proof data whose arrays are the launch-entry contents, a run that ends with every array of the launch at
    what the library computes from the data, and every other unscoped buffer as the two last operations leave it, ends
    with the six argument arrays as they started: a staged input is never written, and the rotations and the mask are
    neither staged nor written by any host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     (((h c).2 main_arg1 (Pipeline.mem_restRefs_of main_arg1 (by decide) (by decide))).trans
        (W_of_ne m dats c main_arg1 (by decide) (by decide) (by decide))).trans (V_main_arg1 m c),
     ((h c).1 2).trans (((dats 0 c).arrAt_in 2 rfl _).trans ((hA c 2).trans (V_main_arg2 m c))),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     (((h c).2 main_arg5 (Pipeline.mem_restRefs_of main_arg5 (by decide) (by decide))).trans
        (W_of_ne m dats c main_arg5 (by decide) (by decide) (by decide))).trans (V_main_arg5 m c)⟩) h

/-! ## The body's accesses -/

/-- The whole point tile, the whole stacked matrix, the whole translation table, a whole 16 x 2 table; -/
abbrev rPts : Rect S3x16000 := Rect.unit (s := S3x16000) ![0, 0] S3x16000.size inb_S3x16000_S3x16000_0_0
abbrev rStack : Rect S48x3 := Rect.unit (s := S48x3) ![0, 0] S48x3.size inb_S48x3_S48x3_0_0
abbrev rTr : Rect S16x3 := Rect.unit (s := S16x3) ![0, 0] S16x3.size inb_S16x3_S16x3_0_0
abbrev rTab : Rect S16x2 := Rect.unit (s := S16x2) ![0, 0] S16x2.size inb_S16x2_S16x2_0_0
/-- plane 0 and plane 1 of the output block. -/
abbrev rPlane0 : Rect S16x2x16000 := Rect.unit (s := S16x2x16000) ![0, 0, 0] S16x1x16000.size inb_S16x2x16000_S16x1x16000_0_0_0
abbrev rPlane1 : Rect S16x2x16000 := Rect.unit (s := S16x2x16000) ![0, 1, 0] S16x1x16000.size inb_S16x2x16000_S16x1x16000_0_1_0

/-! ## What the body leaves in the output block -/

/-- The output block after the body, from the five input blocks: the v plane (stored last) and the u plane. -/
def outBlock (x0 : Vec F S3x16000 .f32) (x1 : Vec F S48x3 .f32) (x2 : Vec F S16x3 .f32) (x3 : Vec F S16x2 .f32) (x4 : Vec F S16x2 .f32) :
    Vec F S16x2x16000 .f32 :=
  View.canon [⟨rPlane1, k0_pay1 (k0_pay4 (View.ld x0 rPts) (View.ld x1 rStack) (View.ld x2 rTr) (View.ld x3 rTab) (View.ld x4 rTab))⟩,
    ⟨rPlane0, k0_pay5 (View.ld x0 rPts) (View.ld x1 rStack) (View.ld x2 rTr) (View.ld x3 rTab) (View.ld x4 rTab)⟩]

/-- The two planes tile the block, so they cover it. -/
theorem cover_planes (p0 : Vec F S16x1x16000 .f32) (p1 : Vec F S16x1x16000 .f32) (y : S16x2x16000.Idx) :
    ∃ pc ∈ ([⟨rPlane1, p0⟩, ⟨rPlane0, p1⟩] : List (View.Piece (Elt F) S16x2x16000 .f32)), y ∈ pc.1.set :=
  View.cover_of_tiled [⟨rPlane1, p0⟩, ⟨rPlane0, p1⟩] S16x1x16000.size (by rfl) y

/-! ## The body's triple -/

set_option maxHeartbeats 1000000 in
/-- The body on whole staging buffers, the five inputs' at contents x0 … x4 and the output's at anything, runs to the
    continuation with the inputs' as they were and the output's at outBlock of them. -/
theorem sound_kernel (c : Dev nD) (E : Set ℕ) (i : grid0.Coords)
    (arg1 : Memref sig .tc .vmem S3x16000 .f32) (harg1 : arg1.IsWhole) (arg2 : Memref sig .tc .vmem S48x3 .f32) (harg2 : arg2.IsWhole)
    (arg3 : Memref sig .tc .vmem S16x3 .f32) (harg3 : arg3.IsWhole) (arg4 : Memref sig .tc .vmem S16x2 .f32) (harg4 : arg4.IsWhole)
    (arg5 : Memref sig .tc .vmem S16x2 .f32) (harg5 : arg5.IsWhole) (arg6 : Memref sig .tc .vmem S16x2x16000 .f32) (harg6 : arg6.IsWhole)
    (x0 : Vec F S3x16000 .f32) (x1 : Vec F S48x3 .f32) (x2 : Vec F S16x3 .f32) (x3 : Vec F S16x2 .f32) (x4 : Vec F S16x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_planes _ _)

/-! ## The launch's proof data -/

/-- On core c: the arrays as the launch finds them; after the body at tile t each input's buffer at its block and the
    output's at outBlock of the five input blocks; nothing kept between tiles, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
/-- What tile t leaves in the output's staging buffer. -/
theorem after_out (c : Dev nD) (t : Fin cfg0.N) :
    (dats m 0 c).after 5 t = outBlock (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic tile -/

/-- What the body is called with at tile t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any tile: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the library computes from the proof data and every other unscoped buffer as the two
    last operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Proj

end
-- ==== Proof.FrameKI.lean ====
/-
  The run of the idealized program's one launch, and its frame.

  @main is seven host operations (three row slices of the rotations, each flattened to a 16 x 3 matrix, stacked into the
  48 x 3 matrix whose rows 16 k + n are row k of camera n), one launch over 125 tiles of 16000 points, and two host
  operations (a transpose and a flattening) on the launch's result. At tile t the body reads the tile's 3 x 16000 block
  of points, the whole stacked matrix and the three small per-camera tables, and fills its 16 x 2 x 16000 output block by
  two stores: plane 0 (the u coordinates) and plane 1 (the v coordinates). The two planes tile the block, so what the
  block holds afterwards is the two payloads side by side, whatever it held before (the body also loads the output block
  before each store and uses neither value).

  Stated here: what the arrays hold when the launch starts (V), each window's block at a tile (iblk), the output block
  after the body as a function of the five input blocks (outBlock), the body's triple, the launch's proof data, the run
  (run_main) with every array named afterwards, and the frame: the six argument arrays end as they started.
-/
import proofs.«403066_j19713899889207_3_alg».proof.Proof.Gen.KernelIdeal.Launch
import proofs.«403066_j19713899889207_3_alg».proof.Proof.Gen.KernelIdeal.Skeleton
import proofs.«403066_j19713899889207_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core c's buffers hold when the launch starts: the memory after the seven host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the two host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the launch's six arrays (the transpose writes main_v8, the flattening main_v9). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)

/-- No host operation before the launch writes buffer b when b is none of main_v0 … main_v6. -/
theorem V_of_ne (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_ne m c main_arg0 (by decide) (by decide) (by decide) (by decide) (by decide) (by decide) (by decide)
theorem V_main_arg1 (c : Dev nD) : V m c main_arg1 = m ((c : Thread nD τ).loc main_arg1) :=
  V_of_ne m c main_arg1 (by decide) (by decide) (by decide) (by decide) (by decide) (by decide) (by decide)
theorem V_main_arg2 (c : Dev nD) : V m c main_arg2 = m ((c : Thread nD τ).loc main_arg2) :=
  V_of_ne m c main_arg2 (by decide) (by decide) (by decide) (by decide) (by decide) (by decide) (by decide)
theorem V_main_arg3 (c : Dev nD) : V m c main_arg3 = m ((c : Thread nD τ).loc main_arg3) :=
  V_of_ne m c main_arg3 (by decide) (by decide) (by decide) (by decide) (by decide) (by decide) (by decide)
theorem V_main_arg4 (c : Dev nD) : V m c main_arg4 = m ((c : Thread nD τ).loc main_arg4) :=
  V_of_ne m c main_arg4 (by decide) (by decide) (by decide) (by decide) (by decide) (by decide) (by decide)
theorem V_main_arg5 (c : Dev nD) : V m c main_arg5 = m ((c : Thread nD τ).loc main_arg5) :=
  V_of_ne m c main_arg5 (by decide) (by decide) (by decide) (by decide) (by decide) (by decide) (by decide)

/-- No host operation after the launch writes buffer b when b is neither main_v8 nor main_v9 and no array of the launch:
    it ends at what it held when the launch started. -/
theorem W_of_ne (dats : (p : Fin _) → (c : Dev nD) → Dat τ (Elt F) Unit ℕ (UR sig nD τ) ℕ (cfgs p) c) (c : Dev nD) (b : Ref sig .tc)
    (h8 : b ≠ main_v8) (h9 : b ≠ main_v9) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h8, StableHlo.devRef_ne_of_ne h9⟩)),
    Pipeline.withArrays_of_ne _ c (V0 m c) _ b (by exact hw)]

/-! ## The windows' blocks -/

/-- Window w's block at tile t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every tile, fetched there or not (a window whose block
    index does not move is fetched once and stays): one statement per input window, the point tile's and the four tables'. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- For any proof data whose arrays are the launch-entry contents, a run that ends with every array of the launch at
    what the library computes from the data, and every other unscoped buffer as the two last operations leave it, ends
    with the six argument arrays as they started: a staged input is never written, and the rotations and the mask are
    neither staged nor written by any host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     (((h c).2 main_arg1 (Pipeline.mem_restRefs_of main_arg1 (by decide) (by decide))).trans
        (W_of_ne m dats c main_arg1 (by decide) (by decide) (by decide))).trans (V_main_arg1 m c),
     ((h c).1 2).trans (((dats 0 c).arrAt_in 2 rfl _).trans ((hA c 2).trans (V_main_arg2 m c))),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     (((h c).2 main_arg5 (Pipeline.mem_restRefs_of main_arg5 (by decide) (by decide))).trans
        (W_of_ne m dats c main_arg5 (by decide) (by decide) (by decide))).trans (V_main_arg5 m c)⟩) h

/-! ## The body's accesses -/

/-- The whole point tile, the whole stacked matrix, the whole translation table, a whole 16 x 2 table; -/
abbrev rPts : Rect S3x16000 := Rect.unit (s := S3x16000) ![0, 0] S3x16000.size inb_S3x16000_S3x16000_0_0
abbrev rStack : Rect S48x3 := Rect.unit (s := S48x3) ![0, 0] S48x3.size inb_S48x3_S48x3_0_0
abbrev rTr : Rect S16x3 := Rect.unit (s := S16x3) ![0, 0] S16x3.size inb_S16x3_S16x3_0_0
abbrev rTab : Rect S16x2 := Rect.unit (s := S16x2) ![0, 0] S16x2.size inb_S16x2_S16x2_0_0
/-- plane 0 and plane 1 of the output block. -/
abbrev rPlane0 : Rect S16x2x16000 := Rect.unit (s := S16x2x16000) ![0, 0, 0] S16x1x16000.size inb_S16x2x16000_S16x1x16000_0_0_0
abbrev rPlane1 : Rect S16x2x16000 := Rect.unit (s := S16x2x16000) ![0, 1, 0] S16x1x16000.size inb_S16x2x16000_S16x1x16000_0_1_0

/-! ## What the body leaves in the output block -/

/-- The output block after the body, from the five input blocks: the v plane (stored last) and the u plane. -/
def outBlock (x0 : Vec F S3x16000 .f32) (x1 : Vec F S48x3 .f32) (x2 : Vec F S16x3 .f32) (x3 : Vec F S16x2 .f32) (x4 : Vec F S16x2 .f32) :
    Vec F S16x2x16000 .f32 :=
  View.canon [⟨rPlane1, k0_pay1 (k0_pay4 (View.ld x0 rPts) (View.ld x1 rStack) (View.ld x2 rTr) (View.ld x3 rTab) (View.ld x4 rTab))⟩,
    ⟨rPlane0, k0_pay5 (View.ld x0 rPts) (View.ld x1 rStack) (View.ld x2 rTr) (View.ld x3 rTab) (View.ld x4 rTab)⟩]

/-- The two planes tile the block, so they cover it. -/
theorem cover_planes (p0 : Vec F S16x1x16000 .f32) (p1 : Vec F S16x1x16000 .f32) (y : S16x2x16000.Idx) :
    ∃ pc ∈ ([⟨rPlane1, p0⟩, ⟨rPlane0, p1⟩] : List (View.Piece (Elt F) S16x2x16000 .f32)), y ∈ pc.1.set :=
  View.cover_of_tiled [⟨rPlane1, p0⟩, ⟨rPlane0, p1⟩] S16x1x16000.size (by rfl) y

/-! ## The body's triple -/

set_option maxHeartbeats 1000000 in
/-- The body on whole staging buffers, the five inputs' at contents x0 … x4 and the output's at anything, runs to the
    continuation with the inputs' as they were and the output's at outBlock of them. -/
theorem sound_kernel (c : Dev nD) (E : Set ℕ) (i : grid0.Coords)
    (arg1 : Memref sig .tc .vmem S3x16000 .f32) (harg1 : arg1.IsWhole) (arg2 : Memref sig .tc .vmem S48x3 .f32) (harg2 : arg2.IsWhole)
    (arg3 : Memref sig .tc .vmem S16x3 .f32) (harg3 : arg3.IsWhole) (arg4 : Memref sig .tc .vmem S16x2 .f32) (harg4 : arg4.IsWhole)
    (arg5 : Memref sig .tc .vmem S16x2 .f32) (harg5 : arg5.IsWhole) (arg6 : Memref sig .tc .vmem S16x2x16000 .f32) (harg6 : arg6.IsWhole)
    (x0 : Vec F S3x16000 .f32) (x1 : Vec F S48x3 .f32) (x2 : Vec F S16x3 .f32) (x3 : Vec F S16x2 .f32) (x4 : Vec F S16x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_planes _ _)

/-! ## The launch's proof data -/

/-- On core c: the arrays as the launch finds them; after the body at tile t each input's buffer at its block and the
    output's at outBlock of the five input blocks; nothing kept between tiles, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
/-- What tile t leaves in the output's staging buffer. -/
theorem after_out (c : Dev nD) (t : Fin cfg0.N) :
    (dats m 0 c).after 5 t = outBlock (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic tile -/

/-- What the body is called with at tile t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any tile: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the library computes from the proof data and every other unscoped buffer as the two
    last operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Proj

end
-- ==== Proof.Spec.lean ====
/-
  The pinhole projection both programs compute, as one function of the five float arrays, index by index.

  Arrays: the points P (3 x 2000000), the rotations R (16 x 3 x 3), the translations T (16 x 3), the focal lengths
  Fo (16 x 2) and the centres Ce (16 x 2). Camera n sees point p at the camera-frame coordinates

      coord n r p = sum over j of R (n, r, j) * P (j, p)  +  T (n, r)          (r = 0, 1, 2; r = 2 is the depth),

  and its pixel coordinate k (k = 0, 1) is (coord n k p / coord n 2 p) * Fo (n, k) + Ce (n, k). The reference divides
  by the depth; the kernel takes the reciprocal of the depth once and multiplies both coordinates by it. On the extended
  reals x / z is x * z⁻¹ for every z other than zero (the infinities included, their inverse being zero), and 1 / z is
  z⁻¹ there, so the two agree wherever the depth is not zero. At depth zero they differ (0 / 0 is the bottom element,
  while 0 * (1 / 0) = 0 * ⊤ = 0), which is why the statement's precondition keeps the depth off zero.
-/
import Idealize.ShloMosaic.PureOps.Ideal
import Idealize.ShloMosaic.Lib.ValueIdx

noncomputable section

namespace Cert.Projection

open Idealize.ShloMosaic Idealize.ShloMosaic.ValueIdx

abbrev SP : Shape := ⟨2, ![3, 2000000]⟩
abbrev SR : Shape := ⟨3, ![16, 3, 3]⟩
abbrev ST : Shape := ⟨2, ![16, 3]⟩
abbrev SF : Shape := ⟨2, ![16, 2]⟩
abbrev SO : Shape := ⟨3, ![16, 2, 2000000]⟩

/-- Row r of camera n's frame at point p. -/
def coord (P : SP.Idx → EReal) (R : SR.Idx → EReal) (T : ST.Idx → EReal) (n : Fin 16) (r : Fin 3) (p : Fin 2000000) : EReal :=
  (∑ j : Fin 3, R (ix3 n r j) * P (ix2 j p)) + T (ix2 n r)

/-- Coordinate k of the pixel as a row of the frame: 0 ↦ 0, 1 ↦ 1. -/
abbrev rowOf (k : Fin 2) : Fin 3 := ⟨k.val, by have := k.isLt; omega⟩

/-- The kernel's pixel: the coordinate times the reciprocal of the depth, times the focal length, plus the centre. -/
def pixelMul (P : SP.Idx → EReal) (R : SR.Idx → EReal) (T : ST.Idx → EReal) (Fo Ce : SF.Idx → EReal) : SO.Idx → EReal :=
  fun i => coord P R T (i 0) (rowOf (i 1)) (i 2) * Ideal.div 1 (coord P R T (i 0) 2 (i 2)) * Fo (ix2 (i 0) (i 1)) + Ce (ix2 (i 0) (i 1))

/-- The reference's pixel: the coordinate divided by the depth, times the focal length, plus the centre. -/
def pixelDiv (P : SP.Idx → EReal) (R : SR.Idx → EReal) (T : ST.Idx → EReal) (Fo Ce : SF.Idx → EReal) : SO.Idx → EReal :=
  fun i => Ideal.div (coord P R T (i 0) (rowOf (i 1)) (i 2)) (coord P R T (i 0) 2 (i 2)) * Fo (ix2 (i 0) (i 1)) + Ce (ix2 (i 0) (i 1))

/-- Off zero a quotient is the product with the reciprocal, on all of the extended reals. -/
theorem div_eq_mul_one_div (x z : EReal) (hz : z ≠ 0) : Ideal.div x z = x * Ideal.div 1 z := by
  unfold Ideal.div
  rw [if_neg hz, if_neg hz, one_mul]

/-- Where no depth is zero the two pixels are one function. -/
theorem pixelDiv_eq_pixelMul (P : SP.Idx → EReal) (R : SR.Idx → EReal) (T : ST.Idx → EReal) (Fo Ce : SF.Idx → EReal)
    (hz : ∀ (n : Fin 16) (p : Fin 2000000), coord P R T n 2 p ≠ 0) : pixelDiv P R T Fo Ce = pixelMul P R T Fo Ce := by
  funext i
  unfold pixelDiv pixelMul
  rw [div_eq_mul_one_div _ _ (hz (i 0) (i 2))]

end Cert.Projection

end
-- ==== Proof.KernelBlock.lean ====
/-
  The kernel's body at the ideal values, read at an index.

  With x0 the tile of points (3 x 16000), x1 the stacked rotations (48 x 3: row 16 r + n is row r of camera n), x2 the
  translations, x3 the focal lengths and x4 the centres, the body's product has at (ρ, q) the sum over j of
  x1 (ρ, j) * x0 (j, q); rows n, 16 + n and 32 + n of it, each plus the translation's column, are camera n's three
  coordinates of point q; and entry (n, k, q) of the output block is coordinate k times the reciprocal of the depth,
  times the focal length, plus the centre.
-/
import proofs.«403066_j19713899889207_3_alg».proof.Proof.FrameKI
import proofs.«403066_j19713899889207_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Block

open Cert.KernelIdeal Cert.KernelIdeal.Gen Cert.KernelIdeal.Proj Cert.Projection
open Idealize.ShloMosaic Idealize.ShloMosaic.ValueIdx

/-! ## Two layout readings -/

/-- A column broadcast along the rows' length: entry (p, c) of the broadcast is entry (p, 0) of the column. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix given a unit middle axis: entry (p, 0, c) of the result is entry (p, c) of the matrix. -/
theorem unit_middle_apply {α : Type} {a b : ℕ} (v : (⟨2, ![a, b]⟩ : Shape).Idx → α)
    (h : (⟨2, ![a, b]⟩ : Shape).ShapeCasts ⟨3, ![a, 1, b]⟩) (p : Fin a) (c : Fin b) :
    shapeCast ⟨3, ![a, 1, b]⟩ v h (ix3 p (0 : Fin 1) c) = v (ix2 p c) := by
  refine shapeCast_apply v h (ix3 p (0 : Fin 1) c) (ix2 p c) ?_
  rw [Shape.rowMajor_val_two, Shape.rowMajor_val_three]
  show p.val * b + c.val = (p.val * 1 + 0) * b + c.val
  rw [Nat.mul_one, Nat.add_zero]

/-! ## The product -/

theorem lhs_stack_0 (i : S48x16000.Idx) (q : dot_S48x3_S3x16000_S48x16000_1_0_0_1_n_n.contr.Idx) :
    (dot_S48x3_S3x16000_S48x16000_1_0_0_1_n_n.lhsIdx i q 0).val = (i 0).val := by
  unfold DotDims.lhsIdx
  rw [dif_neg (show ¬(0 : Fin S48x3.rank) ∈ dot_S48x3_S3x16000_S48x16000_1_0_0_1_n_n.lhsBatch by decide), dif_pos (show (0 : Fin S48x3.rank) ∈ dot_S48x3_S3x16000_S48x16000_1_0_0_1_n_n.lhsNonContracting by decide)]
  rfl
theorem lhs_stack_1 (i : S48x16000.Idx) (q : dot_S48x3_S3x16000_S48x16000_1_0_0_1_n_n.contr.Idx) :
    (dot_S48x3_S3x16000_S48x16000_1_0_0_1_n_n.lhsIdx i q 1).val = (q ⟨0, by decide⟩).val :=
  dot_S48x3_S3x16000_S48x16000_1_0_0_1_n_n.lhsIdx_val_of_single rfl i q
theorem rhs_pts_0 (i : S48x16000.Idx) (q : dot_S48x3_S3x16000_S48x16000_1_0_0_1_n_n.contr.Idx) :
    (dot_S48x3_S3x16000_S48x16000_1_0_0_1_n_n.rhsIdx i q 0).val = (q ⟨0, by decide⟩).val :=
  dot_S48x3_S3x16000_S48x16000_1_0_0_1_n_n.rhsIdx_val_of_single rfl i q
theorem rhs_pts_1 (i : S48x16000.Idx) (q : dot_S48x3_S3x16000_S48x16000_1_0_0_1_n_n.contr.Idx) :
    (dot_S48x3_S3x16000_S48x16000_1_0_0_1_n_n.rhsIdx i q 1).val = (i 1).val := by
  unfold DotDims.rhsIdx
  rw [dif_neg (show ¬(1 : Fin S3x16000.rank) ∈ dot_S48x3_S3x16000_S48x16000_1_0_0_1_n_n.rhsBatch by decide), dif_pos (show (1 : Fin S3x16000.rank) ∈ dot_S48x3_S3x16000_S48x16000_1_0_0_1_n_n.rhsNonContracting by decide)]
  rfl

/-- The stacked rotations times the tile of points, at (ρ, q): a sum of three products. -/
theorem product_apply (x0 : Vec Ideal S3x16000 .f32) (x1 : Vec Ideal S48x3 .f32) (r : Fin 48) (q : Fin 16000) :
    k0_pay2 (F := Ideal) x0 x1 (ix2 r q) = ∑ j : Fin 3, x1 (ix2 r j) * x0 (ix2 j q) := by
  unfold k0_pay2
  rw [shapeCast_self]
  simp only [matmul]
  rw [Ideal.matmul_constant_zero_apply, ← Equiv.sum_comp (ValueIdx.contrEquiv1 dot_S48x3_S3x16000_S48x16000_1_0_0_1_n_n 3 rfl rfl).symm]
  refine Finset.sum_congr rfl fun k _ => ?_
  have hk := ValueIdx.contrEquiv1_symm_val dot_S48x3_S3x16000_S48x16000_1_0_0_1_n_n 3 rfl rfl k
  have el : dot_S48x3_S3x16000_S48x16000_1_0_0_1_n_n.lhsIdx (ix2 r q) ((ValueIdx.contrEquiv1 dot_S48x3_S3x16000_S48x16000_1_0_0_1_n_n 3 rfl rfl).symm k) = ix2 r k := funext fun a => Fin.ext (by
    match a with
    | ⟨0, _⟩ => exact lhs_stack_0 _ _
    | ⟨1, _⟩ => exact (lhs_stack_1 _ _).trans hk)
  have er : dot_S48x3_S3x16000_S48x16000_1_0_0_1_n_n.rhsIdx (ix2 r q) ((ValueIdx.contrEquiv1 dot_S48x3_S3x16000_S48x16000_1_0_0_1_n_n 3 rfl rfl).symm k) = ix2 k q := funext fun a => Fin.ext (by
    match a with
    | ⟨0, _⟩ => exact (rhs_pts_0 _ _).trans hk
    | ⟨1, _⟩ => exact rhs_pts_1 _ _)
  rw [el, er]

/-! ## The coordinates, the reciprocal, the planes -/

/-- Row 16 r + n of the stacked rotations: row r of camera n. -/
abbrev stackRow (r : Fin 3) (n : Fin 16) : Fin 48 := ⟨16 * r.val + n.val, by have := r.isLt; have := n.isLt; omega⟩

/-- Camera n's coordinate r of point q of the tile, from the blocks. -/
def blockCoord (x0 : Vec Ideal S3x16000 .f32) (x1 : Vec Ideal S48x3 .f32) (x2 : Vec Ideal S16x3 .f32) (n : Fin 16) (r : Fin 3) (q : Fin 16000) : EReal :=
  (∑ j : Fin 3, x1 (ix2 (stackRow r n) j) * x0 (ix2 j q)) + x2 (ix2 n r)

/-- Sixteen rows of the product from row o on, plus column r of the translations broadcast along the points. -/
theorem rows_apply (x0 : Vec Ideal S3x16000 .f32) (x1 : Vec Ideal S48x3 .f32) (x2 : Vec Ideal S16x3 .f32) (o rv : ℕ) (r : Fin 3)
    (hs : S48x16000.Slices ![o, 0] S16x16000) (hs' : S16x3.Slices ![0, rv] S16x1) (hb : S16x1.Broadcasts S16x16000)
    (hr : r.val = rv) (ho : o = 16 * rv) (n : Fin 16) (q : Fin 16000) :
    addf (extractStridedSlice S16x16000 ![o, 0] (k0_pay2 (F := Ideal) x0 x1) hs)
      (broadcastTo S16x16000 (extractStridedSlice S16x1 ![0, rv] x2 hs') hb) (ix2 n q) = blockCoord x0 x1 x2 n r q := by
  rw [addf_apply, slice2_axis0_apply o _ hs n q (stackRow r n) (by show 16 * r.val + n.val = o + n.val; omega), product_apply,
    broadcast_column_apply, slice2_axis1_apply rv x2 hs' n (0 : Fin 1) r (by show r.val = rv + 0; omega)]
  rfl

/-- The reciprocal of the depth. -/
theorem recip_apply (x0 : Vec Ideal S3x16000 .f32) (x1 : Vec Ideal S48x3 .f32) (x2 : Vec Ideal S16x3 .f32) (n : Fin 16) (q : Fin 16000) :
    k0_pay3 (F := Ideal) x0 x1 x2 (ix2 n q) = Ideal.div 1 (blockCoord x0 x1 x2 n 2 q) := by
  unfold k0_pay3
  rw [divf_apply, rows_apply x0 x1 x2 32 2 2 _ _ _ rfl rfl n q, broadcast_apply]
  show Ideal.div (Ideal.ofBits .f32 0x3F800000#32) _ = _
  rw [Ideal.ofBits_one_f32]

/-- Plane 0: the u coordinate. -/
theorem planeU_apply (x0 : Vec Ideal S3x16000 .f32) (x1 : Vec Ideal S48x3 .f32) (x2 : Vec Ideal S16x3 .f32) (x3 x4 : Vec Ideal S16x2 .f32)
    (n : Fin 16) (q : Fin 16000) :
    k0_pay5 (F := Ideal) x0 x1 x2 x3 x4 (ix3 n (0 : Fin 1) q)
      = blockCoord x0 x1 x2 n 0 q * Ideal.div 1 (blockCoord x0 x1 x2 n 2 q) * x3 (ix2 n 0) + x4 (ix2 n 0) := by
  unfold k0_pay5
  rw [unit_middle_apply, addf_apply, mulf_apply, mulf_apply, rows_apply x0 x1 x2 0 0 0 _ _ _ rfl rfl n q, recip_apply,
    broadcast_column_apply, broadcast_column_apply,
    slice2_axis1_apply 0 x3 _ n (0 : Fin 1) (0 : Fin 2) rfl, slice2_axis1_apply 0 x4 _ n (0 : Fin 1) (0 : Fin 2) rfl]

/-- Plane 1: the v coordinate. -/
theorem planeV_apply (x0 : Vec Ideal S3x16000 .f32) (x1 : Vec Ideal S48x3 .f32) (x2 : Vec Ideal S16x3 .f32) (x3 x4 : Vec Ideal S16x2 .f32)
    (n : Fin 16) (q : Fin 16000) :
    k0_pay1 (F := Ideal) (k0_pay4 (F := Ideal) x0 x1 x2 x3 x4) (ix3 n (0 : Fin 1) q)
      = blockCoord x0 x1 x2 n 1 q * Ideal.div 1 (blockCoord x0 x1 x2 n 2 q) * x3 (ix2 n 1) + x4 (ix2 n 1) := by
  unfold k0_pay1 k0_pay4
  rw [unit_middle_apply, addf_apply, mulf_apply, mulf_apply, rows_apply x0 x1 x2 16 1 1 _ _ _ rfl rfl n q, recip_apply,
    broadcast_column_apply, broadcast_column_apply,
    slice2_axis1_apply 1 x3 _ n (0 : Fin 1) (1 : Fin 2) rfl, slice2_axis1_apply 1 x4 _ n (0 : Fin 1) (1 : Fin 2) rfl]

/-! ## The output block -/

/-- An index of plane k of the block is the image of its own coordinates under the plane's embedding. -/
theorem plane0_emb (n : Fin 16) (q : Fin 16000) :
    ix3 n (0 : Fin 2) q = (rPlane0 : Rect S16x2x16000).emb (ix3 n (0 : Fin 1) q) :=
  funext fun a => Fin.ext (by
    rw [Rect.emb_apply]
    simp only [Rect.off_unit, Rect.stride_unit]
    match a with
    | ⟨0, _⟩ => show n.val = 0 + 1 * n.val; omega
    | ⟨1, _⟩ => show 0 = 0 + 1 * 0; rfl
    | ⟨2, _⟩ => show q.val = 0 + 1 * q.val; omega)
theorem plane1_emb (n : Fin 16) (q : Fin 16000) :
    ix3 n (1 : Fin 2) q = (rPlane1 : Rect S16x2x16000).emb (ix3 n (0 : Fin 1) q) :=
  funext fun a => Fin.ext (by
    rw [Rect.emb_apply]
    simp only [Rect.off_unit, Rect.stride_unit]
    match a with
    | ⟨0, _⟩ => show n.val = 0 + 1 * n.val; omega
    | ⟨1, _⟩ => show 1 = 1 + 1 * 0; rfl
    | ⟨2, _⟩ => show q.val = 0 + 1 * q.val; omega)
/-- An index of plane 0 is not in plane 1. -/
theorem plane0_not_mem (n : Fin 16) (q : Fin 16000) : ix3 n (0 : Fin 2) q ∉ (rPlane1 : Rect S16x2x16000).set := fun hm => by
  have h1 := (Rect.mem_set_unit.mp hm) 1
  have h2 : (1 : ℕ) ≤ 0 := h1.1
  omega

/-- The two planes laid side by side, read at an index: plane 0's payload at an index of plane 0, plane 1's at one of
    plane 1, whatever the payloads are. -/
theorem planes_apply0 (p1 p0 : Vec Ideal S16x1x16000 .f32) (n : Fin 16) (q : Fin 16000) :
    View.canon ([⟨rPlane1, p1⟩, ⟨rPlane0, p0⟩] : List (View.Piece (Elt Ideal) S16x2x16000 .f32)) (ix3 n (0 : Fin 2) q)
      = p0 (ix3 n (0 : Fin 1) q) :=
  (View.canon_cons_of_not_mem (⟨rPlane1, p1⟩ : View.Piece (Elt Ideal) S16x2x16000 .f32) [⟨rPlane0, p0⟩] (plane0_not_mem n q)).trans
    ((congrArg (View.canon ([⟨rPlane0, p0⟩] : List (View.Piece (Elt Ideal) S16x2x16000 .f32))) (plane0_emb n q)).trans
      (View.canon_cons_emb (rPlane0 : Rect S16x2x16000) p0 [] (ix3 n (0 : Fin 1) q)))
theorem planes_apply1 (p1 p0 : Vec Ideal S16x1x16000 .f32) (n : Fin 16) (q : Fin 16000) :
    View.canon ([⟨rPlane1, p1⟩, ⟨rPlane0, p0⟩] : List (View.Piece (Elt Ideal) S16x2x16000 .f32)) (ix3 n (1 : Fin 2) q)
      = p1 (ix3 n (0 : Fin 1) q) :=
  (congrArg (View.canon ([⟨rPlane1, p1⟩, ⟨rPlane0, p0⟩] : List (View.Piece (Elt Ideal) S16x2x16000 .f32))) (plane1_emb n q)).trans
    (View.canon_cons_emb (rPlane1 : Rect S16x2x16000) p1 [⟨rPlane0, p0⟩] (ix3 n (0 : Fin 1) q))

theorem zero2 : (![0, 0] : Fin 2 → ℕ) = fun _ => 0 := funext fun a => by fin_cases a <;> rfl

/-- The body loads each input block whole. -/
theorem loads_whole (x0 : Vec Ideal S3x16000 .f32) (x1 : Vec Ideal S48x3 .f32) (x2 : Vec Ideal S16x3 .f32) (x3 : Vec Ideal S16x2 .f32) :
    View.ld x0 rPts = x0 ∧ View.ld x1 rStack = x1 ∧ View.ld x2 rTr = x2 ∧ View.ld x3 rTab = x3 :=
  ⟨View.ld_unit_zero (S := S3x16000) zero2 _ x0, View.ld_unit_zero (S := S48x3) zero2 _ x1,
    View.ld_unit_zero (S := S16x3) zero2 _ x2, View.ld_unit_zero (S := S16x2) zero2 _ x3⟩

theorem outBlock_apply0 (x0 : Vec Ideal S3x16000 .f32) (x1 : Vec Ideal S48x3 .f32) (x2 : Vec Ideal S16x3 .f32) (x3 x4 : Vec Ideal S16x2 .f32)
    (n : Fin 16) (q : Fin 16000) :
    outBlock (F := Ideal) x0 x1 x2 x3 x4 (ix3 n (0 : Fin 2) q)
      = blockCoord x0 x1 x2 n 0 q * Ideal.div 1 (blockCoord x0 x1 x2 n 2 q) * x3 (ix2 n 0) + x4 (ix2 n 0) := by
  unfold outBlock
  rw [(loads_whole x0 x1 x2 x3).1, (loads_whole x0 x1 x2 x3).2.1, (loads_whole x0 x1 x2 x3).2.2.1, (loads_whole x0 x1 x2 x3).2.2.2,
    (loads_whole x0 x1 x2 x4).2.2.2]
  exact (planes_apply0 _ _ n q).trans (planeU_apply x0 x1 x2 x3 x4 n q)

theorem outBlock_apply1 (x0 : Vec Ideal S3x16000 .f32) (x1 : Vec Ideal S48x3 .f32) (x2 : Vec Ideal S16x3 .f32) (x3 x4 : Vec Ideal S16x2 .f32)
    (n : Fin 16) (q : Fin 16000) :
    outBlock (F := Ideal) x0 x1 x2 x3 x4 (ix3 n (1 : Fin 2) q)
      = blockCoord x0 x1 x2 n 1 q * Ideal.div 1 (blockCoord x0 x1 x2 n 2 q) * x3 (ix2 n 1) + x4 (ix2 n 1) := by
  unfold outBlock
  rw [(loads_whole x0 x1 x2 x3).1, (loads_whole x0 x1 x2 x3).2.1, (loads_whole x0 x1 x2 x3).2.2.1, (loads_whole x0 x1 x2 x3).2.2.2,
    (loads_whole x0 x1 x2 x4).2.2.2]
  exact (planes_apply1 _ _ n q).trans (planeV_apply x0 x1 x2 x3 x4 n q)

/-- Entry (n, k, q) of the output block after the body. -/
theorem outBlock_apply (x0 : Vec Ideal S3x16000 .f32) (x1 : Vec Ideal S48x3 .f32) (x2 : Vec Ideal S16x3 .f32) (x3 x4 : Vec Ideal S16x2 .f32)
    (n : Fin 16) (k : Fin 2) (q : Fin 16000) :
    outBlock (F := Ideal) x0 x1 x2 x3 x4 (ix3 n k q)
      = blockCoord x0 x1 x2 n (rowOf k) q * Ideal.div 1 (blockCoord x0 x1 x2 n 2 q) * x3 (ix2 n k) + x4 (ix2 n k) := by
  match k with
  | ⟨0, _⟩ => exact outBlock_apply0 x0 x1 x2 x3 x4 n q
  | ⟨1, _⟩ => exact outBlock_apply1 x0 x1 x2 x3 x4 n q

end Cert.KernelIdeal.Block

end
-- ==== Proof.LibNary3.lean ====
/-
  A host operation over a LITERAL family of three operands (a `stablehlo.concatenate` of three tensors prints as
  `nary ![x, a, b] y f`): its result with each operand's contents at its own reference.

  The general result lemma states the operands under a binder, `fun k => F ↑(![x, a, b] k)`, where the reference is no
  literal, so a pass that reads the fold of a line of operations buffer by buffer cannot go on into the operands' own
  contents. Stated with `Fin.cons (F ↑x) (Fin.cons (F ↑a) (Fin.cons (F ↑b) …))` instead, each operand stands at its
  literal reference and the pass continues through them; the function's body, which reads `u 0`, `u 1`, `u 2`, meets
  the three contents by β and `Fin.cons` at the literals. (The library states this for four operands.)
-/
import Idealize.ShloMosaic.Lib.StableHlo.Run

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one simp pass over a line of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Stack.lean ====
/-
  The stacked rotations as the launch finds them: buffer main_v6 after the seven host operations is the concatenation,
  along the rows, of rows 0, 1 and 2 of every camera's rotation (each a 16 x 1 x 3 slice flattened to 16 x 3), so its
  entry (16 r + n, j) is R (n, r, j).
-/
import proofs.«403066_j19713899889207_3_alg».proof.Proof.FrameKI
import proofs.«403066_j19713899889207_3_alg».proof.Proof.LibNary3
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Stack

open Cert.KernelIdeal Cert.KernelIdeal.Gen Cert.KernelIdeal.Proj
open Idealize.ShloMosaic Idealize.ShloMosaic.TcCoe Idealize.ShloMosaic.ValueIdx Idealize.ShloMosaic.StableHlo Idealize.SL.Sem

variable {F : FTy → Type} [FloatOps F]
variable (m : (ℓ : Loc nD τ sig) → Buf (Elt F) ℓ)

/-- Row r of every camera's rotation, as a 16 x 3 matrix. -/
def rowsOf (R : S16x3x3.Idx → Elt F .f32) (r : ℕ) (hs : S16x3x3.Slices ![0, r, 0] S16x1x3) : S16x3.Idx → Elt F .f32 :=
  shapeCast S16x3 (extractStridedSlice S16x1x3 ![0, r, 0] R hs) shapeCasts_S16x1x3_S16x3

/-- The three row matrices stacked. -/
def stacked (R : S16x3x3.Idx → Elt F .f32) : S48x3.Idx → Elt F .f32 :=
  concatenate S48x3 0 [⟨S16x3, rowsOf R 0 slices_S16x3x3_S16x1x3_0_0_0⟩, ⟨S16x3, rowsOf R 1 slices_S16x3x3_S16x1x3_0_1_0⟩,
    ⟨S16x3, rowsOf R 2 slices_S16x3x3_S16x1x3_0_2_0⟩] concatenates_S16x3_S16x3_S16x3_S48x3_d0

/-- What main_v6 holds when the launch starts. -/
theorem V_stack (c : Dev nD) : (V m c main_v6 : S48x3.Idx → Elt F .f32) = stacked (m ((c : Thread nD τ).loc main_arg1)) := by
  show StableHlo.after hostOps0 (fun b => m (c, b)) (Proc.devRef .tc main_v6) = _
  simp only [hostOps0, after_cons, after_nil]
  rw [nary3_result]
  repeat (first
    | rw [unary_result] | rw [reshape_result]
    | (rw [unary_result_ne]; rotate_left; decide)
    | (rw [reshape_result_ne]; rotate_left; decide))
  rfl

/-- Row r of camera n, entry j, through the flattening and the slice. -/
theorem rowsOf_apply (R : S16x3x3.Idx → Elt F .f32) (r : ℕ) (hs : S16x3x3.Slices ![0, r, 0] S16x1x3) (n : Fin 16) (j : Fin 3)
    (rr : Fin 3) (hr : rr.val = r) : rowsOf R r hs (ix2 n j) = R (ix3 n rr j) := by
  unfold rowsOf
  rw [shapeCast_apply _ shapeCasts_S16x1x3_S16x3 (ix2 n j) (ix3 n (0 : Fin 1) j)
    (by rw [Shape.rowMajor_val_two, Shape.rowMajor_val_three]; show (n.val * 1 + 0) * 3 + j.val = n.val * 3 + j.val; omega),
    slice3_axis1_apply r R hs n (0 : Fin 1) j rr (by show rr.val = r + 0; omega)]

/-- The three pieces of the stack. -/
abbrev pieces (R : S16x3x3.Idx → Elt F .f32) : List ((s : Shape) × (s.Idx → Elt F .f32)) :=
  [⟨S16x3, rowsOf R 0 slices_S16x3x3_S16x1x3_0_0_0⟩, ⟨S16x3, rowsOf R 1 slices_S16x3x3_S16x1x3_0_1_0⟩,
    ⟨S16x3, rowsOf R 2 slices_S16x3x3_S16x1x3_0_2_0⟩]

/-- Entry (16 r + n, j) of the stack is R (n, r, j): the row falls in piece r of the concatenation, at row n of it. -/
theorem stacked_apply (R : S16x3x3.Idx → Elt F .f32) (r : Fin 3) (n : Fin 16) (j : Fin 3) (ρ : Fin 48) (hρ : ρ.val = 16 * r.val + n.val) :
    stacked R (ix2 ρ j) = R (ix3 n r j) := by
  show concatenate S48x3 0 (pieces R) concatenates_S16x3_S16x3_S16x3_S48x3_d0 (ix2 ρ j) = _
  have hi : ∀ b : Fin S16x3.rank, b.cast (rfl : S16x3.rank = S48x3.rank) ≠ (0 : Fin S48x3.rank) →
      ((ix2 n j : S16x3.Idx) b).val = ((ix2 ρ j : S48x3.Idx) (b.cast (rfl : S16x3.rank = S48x3.rank))).val := fun b hb => by
    match b with
    | ⟨0, _⟩ => exact absurd rfl hb
    | ⟨1, _⟩ => rfl
  match r, hρ with
  | ⟨0, _⟩, hρ =>
    have h' : ρ.val = 16 * 0 + n.val := hρ
    exact (concatenate_apply_piece (0 : Fin S48x3.rank) (pieces R) concatenates_S16x3_S16x3_S16x3_S48x3_d0 (ix2 ρ j) 0 (Nat.zero_lt_succ _) S16x3 _ rfl rfl 0 rfl
      (ix2 n j) hi (by show 0 + n.val = ρ.val; omega)).trans (rowsOf_apply R 0 _ n j 0 rfl)
  | ⟨1, _⟩, hρ =>
    have h' : ρ.val = 16 * 1 + n.val := hρ
    exact (concatenate_apply_piece (0 : Fin S48x3.rank) (pieces R) concatenates_S16x3_S16x3_S16x3_S48x3_d0 (ix2 ρ j) 1 (Nat.succ_lt_succ (Nat.zero_lt_succ _)) S16x3 _ rfl rfl 16 rfl
      (ix2 n j) hi (by show 16 + n.val = ρ.val; omega)).trans (rowsOf_apply R 1 _ n j 1 rfl)
  | ⟨2, _⟩, hρ =>
    have h' : ρ.val = 16 * 2 + n.val := hρ
    exact (concatenate_apply_piece (0 : Fin S48x3.rank) (pieces R) concatenates_S16x3_S16x3_S16x3_S48x3_d0 (ix2 ρ j) 2 (Nat.succ_lt_succ (Nat.succ_lt_succ (Nat.zero_lt_succ _))) S16x3 _ rfl rfl 32 rfl
      (ix2 n j) hi (by show 32 + n.val = ρ.val; omega)).trans (rowsOf_apply R 2 _ n j 2 rfl)

end Cert.KernelIdeal.Stack

end
-- ==== Proof.KernelArray.lean ====
/-
  The output array after the launch, at the ideal values.

  Tile t's blocks are restrictions of the arrays: the point block is columns 16000 t … 16000 t + 15999 of the points, the
  stack block the whole stacked matrix (entry (16 r + n, j) is R (n, r, j)), the three tables whole. So what tile t
  writes back is columns 16000 t … of ONE function of the arrays, the product form of the pixel; the 125 tiles cover the
  array; hence the array after the launch is that function.
-/
import proofs.«403066_j19713899889207_3_alg».proof.Proof.KernelBlock
import proofs.«403066_j19713899889207_3_alg».proof.Proof.Stack

set_option maxRecDepth 16384

noncomputable section

namespace Cert.KernelIdeal.Whole

open Cert.KernelIdeal Cert.KernelIdeal.Gen Cert.KernelIdeal.Proj Cert.KernelIdeal.Block Cert.KernelIdeal.Stack Cert.Projection
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and the blocks, at their literal types -/

abbrev arrP (c : Dev nD) : SP.Idx → EReal := m ((c : Thread nD τ).loc main_arg0)
abbrev arrR (c : Dev nD) : SR.Idx → EReal := m ((c : Thread nD τ).loc main_arg1)
abbrev arrT (c : Dev nD) : ST.Idx → EReal := m ((c : Thread nD τ).loc main_arg2)
abbrev arrF (c : Dev nD) : SF.Idx → EReal := m ((c : Thread nD τ).loc main_arg3)
abbrev arrC (c : Dev nD) : SF.Idx → EReal := m ((c : Thread nD τ).loc main_arg4)

/-- The pixels, in the kernel's product form, of core c's argument arrays. -/
def pixels (c : Dev nD) : SO.Idx → EReal := pixelMul (arrP m c) (arrR m c) (arrT m c) (arrF m c) (arrC m c)

abbrev blkP (c : Dev nD) (t : Fin cfg0.N) : Vec Ideal S3x16000 .f32 := iblk m c 0 t
abbrev blkS (c : Dev nD) (t : Fin cfg0.N) : Vec Ideal S48x3 .f32 := iblk m c 1 t
abbrev blkT (c : Dev nD) (t : Fin cfg0.N) : Vec Ideal S16x3 .f32 := iblk m c 2 t
abbrev blkF (c : Dev nD) (t : Fin cfg0.N) : Vec Ideal S16x2 .f32 := iblk m c 3 t
abbrev blkC (c : Dev nD) (t : Fin cfg0.N) : Vec Ideal S16x2 .f32 := iblk m c 4 t

/-- The block indices, decided over the 125 tiles: the point block and the output block move along the points with the
    tile, every other block stays at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = t.val :=
  (by decide +kernel : ∀ t : Fin grid0.N, _)

/-! ## The blocks as restrictions of the arrays -/

theorem blkP_apply (c : Dev nD) (t : Fin cfg0.N) (j : Fin 3) (q : Fin 16000) (p : Fin 2000000) (hp : p.val = t.val * 16000 + q.val) :
    blkP m c t (ix2 j q) = arrP m c (ix2 j p) := by
  show V m c main_arg0 (((cfg0.win 0).blk t).view.emb (ix2 j q)) = _
  refine (congrFun (V_main_arg0 m c) _).trans (congrArg (arrP m c) (funext fun a => Fin.ext ?_))
  obtain ⟨e0, e1, -⟩ := idx_facts t
  match a with
  | ⟨0, _⟩ => show win0_0.index t (0 : Fin 2) * 3 + 1 * j.val = j.val; omega
  | ⟨1, _⟩ => show win0_0.index t (1 : Fin 2) * 16000 + 1 * q.val = p.val; omega

theorem blkS_apply (c : Dev nD) (t : Fin cfg0.N) (r : Fin 3) (n : Fin 16) (j : Fin 3) :
    blkS m c t (ix2 (stackRow r n) j) = arrR m c (ix3 n r j) := by
  show V m c main_v6 (((cfg0.win 1).blk t).view.emb (ix2 (stackRow r n) j)) = _
  refine (congrFun (V_stack m c) _).trans ?_
  have e : ((cfg0.win 1).blk t).view.emb (ix2 (stackRow r n) j) = (ix2 (stackRow r n) j : S48x3.Idx) := funext fun a => Fin.ext (by
    obtain ⟨-, -, e2, e3, -⟩ := idx_facts t
    match a with
    | ⟨0, _⟩ => show win0_1.index t (0 : Fin 2) * 48 + 1 * (16 * r.val + n.val) = 16 * r.val + n.val; omega
    | ⟨1, _⟩ => show win0_1.index t (1 : Fin 2) * 3 + 1 * j.val = j.val; omega)
  rw [e]
  exact stacked_apply (F := Ideal) (arrR m c) r n j (stackRow r n) rfl

theorem blkT_apply (c : Dev nD) (t : Fin cfg0.N) (n : Fin 16) (r : Fin 3) : blkT m c t (ix2 n r) = arrT m c (ix2 n r) := by
  show V m c main_arg2 (((cfg0.win 2).blk t).view.emb (ix2 n r)) = _
  refine (congrFun (V_main_arg2 m c) _).trans (congrArg (arrT m c) (funext fun a => Fin.ext ?_))
  obtain ⟨-, -, -, -, e4, e5, -⟩ := idx_facts t
  match a with
  | ⟨0, _⟩ => show win0_2.index t (0 : Fin 2) * 16 + 1 * n.val = n.val; omega
  | ⟨1, _⟩ => show win0_2.index t (1 : Fin 2) * 3 + 1 * r.val = r.val; omega

theorem blkF_apply (c : Dev nD) (t : Fin cfg0.N) (n : Fin 16) (k : Fin 2) : blkF m c t (ix2 n k) = arrF m c (ix2 n k) := by
  show V m c main_arg3 (((cfg0.win 3).blk t).view.emb (ix2 n k)) = _
  refine (congrFun (V_main_arg3 m c) _).trans (congrArg (arrF m c) (funext fun a => Fin.ext ?_))
  obtain ⟨-, -, -, -, -, -, e6, e7, -⟩ := idx_facts t
  match a with
  | ⟨0, _⟩ => show win0_3.index t (0 : Fin 2) * 16 + 1 * n.val = n.val; omega
  | ⟨1, _⟩ => show win0_3.index t (1 : Fin 2) * 2 + 1 * k.val = k.val; omega

theorem blkC_apply (c : Dev nD) (t : Fin cfg0.N) (n : Fin 16) (k : Fin 2) : blkC m c t (ix2 n k) = arrC m c (ix2 n k) := by
  show V m c main_arg4 (((cfg0.win 4).blk t).view.emb (ix2 n k)) = _
  refine (congrFun (V_main_arg4 m c) _).trans (congrArg (arrC m c) (funext fun a => Fin.ext ?_))
  obtain ⟨-, -, -, -, -, -, -, -, e8, e9, -⟩ := idx_facts t
  match a with
  | ⟨0, _⟩ => show win0_4.index t (0 : Fin 2) * 16 + 1 * n.val = n.val; omega
  | ⟨1, _⟩ => show win0_4.index t (1 : Fin 2) * 2 + 1 * k.val = k.val; omega

/-- Camera n's coordinate r of point q of tile t, from the blocks, is its coordinate of point 16000 t + q, from the arrays. -/
theorem blockCoord_eq (c : Dev nD) (t : Fin cfg0.N) (n : Fin 16) (r : Fin 3) (q : Fin 16000) (p : Fin 2000000)
    (hp : p.val = t.val * 16000 + q.val) :
    blockCoord (blkP m c t) (blkS m c t) (blkT m c t) n r q = coord (arrP m c) (arrR m c) (arrT m c) n r p := by
  unfold blockCoord coord
  rw [blkT_apply]
  refine congrArg (· + arrT m c (ix2 n r)) (Finset.sum_congr rfl fun j _ => ?_)
  rw [blkS_apply, blkP_apply m c t j q p hp]

/-! ## What a tile writes back -/

/-- Tile t writes back columns 16000 t … 16000 t + 15999 of the pixels. -/
theorem flushed_eq (c : Dev nD) (t : Fin cfg0.N) :
    (dats m 0 c).flushed 5 t = ((cfg0.win 5).blk t).view.read (Elt Ideal) (pixels m c) := by
  show (cfg0.win 5).cut (grid0.coords t) ((dats m 0 c).after 5 t) = _
  rw [after_out]
  funext y
  obtain ⟨n, k, q, rfl⟩ : ∃ (n : Fin 16) (k : Fin 2) (q : Fin 16000), y = ix3 n k q := ⟨y 0, y 1, y 2, eq_ix3 y⟩
  have h125 : cfg0.N = 125 := N_0
  have hq : t.val * 16000 + q.val < 2000000 := by have := t.isLt; have := q.isLt; omega
  have e : ((cfg0.win 5).blk t).view.emb (ix3 n k q) = (ix3 n k (⟨t.val * 16000 + q.val, hq⟩ : Fin 2000000) : SO.Idx) :=
    funext fun a => Fin.ext (by
      obtain ⟨-, -, -, -, -, -, -, -, -, -, e10, e11, e12⟩ := idx_facts t
      match a with
      | ⟨0, _⟩ => show win0_5.index t (0 : Fin 3) * 16 + 1 * n.val = n.val; omega
      | ⟨1, _⟩ => show win0_5.index t (1 : Fin 3) * 2 + 1 * k.val = k.val; omega
      | ⟨2, _⟩ => show win0_5.index t (2 : Fin 3) * 16000 + 1 * q.val = t.val * 16000 + q.val; omega)
  show outBlock (blkP m c t) (blkS m c t) (blkT m c t) (blkF m c t) (blkC m c t) (ix3 n k q)
    = pixels m c (((cfg0.win 5).blk t).view.emb (ix3 n k q))
  rw [e, outBlock_apply, blockCoord_eq m c t n (rowOf k) q ⟨t.val * 16000 + q.val, hq⟩ rfl,
    blockCoord_eq m c t n 2 q ⟨t.val * 16000 + q.val, hq⟩ rfl, blkF_apply, blkC_apply]
  rfl

/-! ## The tiles cover the array -/

theorem mem_blk (t : Fin cfg0.N) (i : SO.Idx) :
    i ∈ ((cfg0.win 5).blk t).view.set ↔ ∀ a : Fin 3, win0_5.index t a * S16x2x16000.size a ≤ (i a).val
      ∧ (i a).val < win0_5.index t a * S16x2x16000.size a + S16x2x16000.size a := by
  show i ∈ ((View.whole main_v7).slice (win0_5.rect t)).set ↔ _
  rw [View.set_slice_whole, Rect.mem_set_unit]
  exact Iff.rfl

/-- Point p lies in tile p / 16000. -/
theorem cover (i : SO.Idx) : ∃ t : Fin cfg0.N, (cfg0.win 5).flush t = true ∧ i ∈ ((cfg0.win 5).blk t).view.set := by
  have h125 : cfg0.N = 125 := N_0
  have hN : grid0.N = 125 := N_0
  have h0 : (i 0).val < 16 := (i 0).isLt
  have h1 : (i 1).val < 2 := (i 1).isLt
  have h2 : (i 2).val < 2000000 := (i 2).isLt
  refine ⟨⟨(i 2).val / 16000, by omega⟩, flush0_5 _, ?_⟩
  rw [mem_blk]
  obtain ⟨-, -, -, -, -, -, -, -, -, -, e10, e11, e12⟩ := idx_facts ⟨(i 2).val / 16000, by omega⟩
  intro a
  match a with
  | ⟨0, _⟩ => show win0_5.index _ (0 : Fin 3) * 16 ≤ (i 0).val ∧ (i 0).val < win0_5.index _ (0 : Fin 3) * 16 + 16; omega
  | ⟨1, _⟩ => show win0_5.index _ (1 : Fin 3) * 2 ≤ (i 1).val ∧ (i 1).val < win0_5.index _ (1 : Fin 3) * 2 + 2; omega
  | ⟨2, _⟩ => show win0_5.index _ (2 : Fin 3) * 16000 ≤ (i 2).val ∧ (i 2).val < win0_5.index _ (2 : Fin 3) * 16000 + 16000
              have e12' : win0_5.index ⟨(i 2).val / 16000, by omega⟩ (2 : Fin 3) = (i 2).val / 16000 := e12
              omega

/-- The output array after the launch is the pixels. -/
theorem final (c : Dev nD) : (dats m 0 c).arrAt 5 cfg0.N = pixels m c :=
  (dats m 0 c).arrAt_eq_of_cover 5 (pixels m c) (fun t _ => flushed_eq m c t) (cover)

end Cert.KernelIdeal.Whole

end
-- ==== Proof.RefValue.lean ====
/-
  The reference, read index by index: before its last two operations (a transpose and a flattening, the same two the
  kernel's program ends with) its value at (n, k, p) is the quotient of camera n's coordinate k of point p by its depth,
  times the focal length, plus the centre. Each of its operations is read at an index by the generated lemma for it; what
  is left is that the indices those lemmas compose are the plain coordinates.
-/
import proofs.«403066_j19713899889207_3_alg».proof.Proof.Gen.ReferenceIdeal.Read
import proofs.«403066_j19713899889207_3_alg».proof.Proof.Spec

noncomputable section

namespace Cert.ReferenceIdeal.RefValue

open Cert.ReferenceIdeal Cert.ReferenceIdeal.Read Cert.Projection Idealize.ShloMosaic Idealize.ShloMosaic.ValueIdx

/-- The operands' indices of the product at output index (n, r, p) and contraction index j. -/
theorem lidx_eq (i : S16x3x2000000.Idx) (j : Fin 3) : lidx_main_v0 i j = ix3 (i 0) (i 1) j :=
  funext fun a => by match a with | ⟨0, _⟩ => rfl | ⟨1, _⟩ => rfl | ⟨2, _⟩ => rfl
theorem ridx_eq (i : S16x3x2000000.Idx) (j : Fin 3) : ridx_main_v0 i j = ix2 j (i 2) :=
  funext fun a => by match a with | ⟨0, _⟩ => rfl | ⟨1, _⟩ => rfl

/-- The sum of the rotated point and the translation at (n, r, p) is the camera-frame coordinate. -/
theorem frame_apply (x0 : SP.Idx → EReal) (x1 : SR.Idx → EReal) (x2 : ST.Idx → EReal) (i : S16x3x2000000.Idx) :
    val_main_v3 (F := Ideal) x0 x1 x2 i = coord x0 x1 x2 (i 0) (i 1) (i 2) := by
  rw [val_main_v3_apply, val_main_v0_apply, val_main_v2_apply, val_main_v1_apply]
  simp only [lidx_eq, ridx_eq]
  have e : idx_main_v1 (idx_main_v2 i) = ix2 (i 0) (i 1) :=
    funext fun a => by match a with | ⟨0, _⟩ => rfl | ⟨1, _⟩ => rfl
  rw [e]
  rfl

/-- Before the transpose the reference holds the quotient form of the pixel. -/
theorem stage_eq (x0 : SP.Idx → EReal) (x1 : SR.Idx → EReal) (x2 : ST.Idx → EReal) (x3 x4 : SF.Idx → EReal) :
    val_main_v13 (F := Ideal) x0 x1 x2 x3 x4 = pixelDiv x0 x1 x2 x3 x4 := by
  funext i
  rw [val_main_v13_apply, val_main_v10_apply, val_main_v7_apply, val_main_v4_apply, val_main_v6_apply, val_main_v5_apply,
    frame_apply, frame_apply, val_main_v9_apply, val_main_v8_apply, val_main_v12_apply, val_main_v11_apply]
  have e3 : idx_main_v8 (idx_main_v9 i) = ix2 (i 0) (i 1) :=
    funext fun a => by match a with | ⟨0, _⟩ => rfl | ⟨1, _⟩ => rfl
  have e4 : idx_main_v11 (idx_main_v12 i) = ix2 (i 0) (i 1) :=
    funext fun a => by match a with | ⟨0, _⟩ => rfl | ⟨1, _⟩ => rfl
  rw [e3, e4]
  rfl

end Cert.ReferenceIdeal.RefValue

end
-- ==== Proof.PreDecode.lean ====
/-
  The precondition, read: it is the conjunction of the five finiteness tests and of "no entry of the reference's divisor
  is zero", and the divisor is the depth row of the camera frame. So under it every camera's depth of every point is
  different from zero.
-/
import proofs.«403066_j19713899889207_3_alg».proof.Pre_finite_inputs
import proofs.«403066_j19713899889207_3_alg».proof.Proof.Gen.Pre_finite_inputs
import proofs.«403066_j19713899889207_3_alg».proof.Proof.RefValue
import Idealize.ShloMosaic.Lib.ReduceAll
import Idealize.ShloMosaic.Lib.Affine
import Idealize.ShloMosaic.Lib.ValueLayout

noncomputable section

namespace Cert.Pre_finite_inputs.Decode

open Cert.Pre_finite_inputs Cert.Projection Idealize.ShloMosaic Idealize.ShloMosaic.ValueIdx

variable [Cert.Pre_finite_inputs.Facts]
open Facts

instance : Subsingleton S_.Idx := ⟨fun a b => funext fun d => d.elim0⟩

/-- The camera frame as the precondition spells it is the camera frame as the reference spells it. -/
theorem frame_eq (a0 : FVec Ideal S3x2000000 .f32) (a1 : FVec Ideal S16x3x3 .f32) (a2 : FVec Ideal S16x3 .f32) :
    addf (Host.dotGeneral (F := Ideal) dot_S16x3x3_S3x2000000_S16x3x2000000_2_0_01_1_n_n none a1 a0)
      (broadcastInDim S16x3x2000000 ![0, 1, 2] bcast_S16x3x1_S16x3x2000000_0_1_2 (broadcastInDim S16x3x1 ![0, 1] bcast_S16x3_S16x3x1_0_1 a2))
    = Cert.ReferenceIdeal.Read.val_main_v3 (F := Ideal) a0 a1 a2 := rfl

/-- Under the precondition no depth is zero. -/
theorem depth_ne_zero (a0 : SP.Idx → EReal) (a1 : SR.Idx → EReal) (a2 : ST.Idx → EReal) (a3 a4 : SF.Idx → EReal) (a5 : IVec S16x2000000 32)
    (h : fn (F := Ideal) a0 a1 a2 a3 a4 a5 = fun _ => 1#1) (n : Fin 16) (p : Fin 2000000) : coord a0 a1 a2 n 2 p ≠ 0 := by
  have h0 := congrFun h ValueIdx.ix0
  unfold fn fn_part1 at h0
  dsimp only at h0
  have h1 := (IntOp.andi_eq_one.mp h0).2
  have h2 := Host.reduce_andi_all _ _ _ _ ValueIdx.ix0 h1 (ix3 n (0 : Fin 1) p)
  rw [cmpf_apply, slice3_axis1_apply 2 _ _ n (0 : Fin 1) p (2 : Fin 3) rfl, frame_eq, Cert.ReferenceIdeal.RefValue.frame_apply] at h2
  intro hz
  have hz' : coord a0 a1 a2 (ix3 n (2 : Fin 3) p 0) (ix3 n (2 : Fin 3) p 1) (ix3 n (2 : Fin 3) p 2) = 0 := hz
  rw [hz', broadcastInDim_apply _ _ _ _ ValueIdx.ix0 (fun a => a.elim0), constant_apply, Ideal.ofBits_zero_f32] at h2
  change BitVec.ofBool (decide ((0 : EReal) ≠ 0)) = 1#1 at h2
  simp at h2

end Cert.Pre_finite_inputs.Decode

end
-- ==== Proof.Assemble.lean ====
/-
  The two runs, each ending at the same array.

  Both programs end with the same two operations on their 16 x 2 x 2000000 array of pixels: a transpose to
  16 x 2000000 x 2 and a flattening to 32000000 x 2. The kernel's array is the product form of the pixel, the reference's
  the quotient form; under the precondition no depth is zero, so the two arrays are one function, and so are the results.
-/
import proofs.«403066_j19713899889207_3_alg».proof.Defs
import proofs.«403066_j19713899889207_3_alg».proof.Proof.KernelArray
import proofs.«403066_j19713899889207_3_alg».proof.Proof.PreDecode
import proofs.«403066_j19713899889207_3_alg».proof.Proof.RefValue
import Idealize.ShloMosaic.Lib.StableHlo.Run

noncomputable section

namespace Cert.Projection

open Idealize.ShloMosaic

abbrev SOt : Shape := ⟨3, ![16, 2000000, 2]⟩
abbrev SRes : Shape := ⟨2, ![32000000, 2]⟩

theorem transposes_tail : SO.Transposes [0, 2, 1] SOt := by decide
theorem casts_tail : SOt.ShapeCasts SRes := by decide

/-- The last two operations of both programs, as one function of the array of pixels. -/
def tailOf (X : SO.Idx → EReal) : SRes.Idx → EReal := shapeCast SRes (transpose SOt [0, 2, 1] X transposes_tail) casts_tail

end Cert.Projection

namespace Cert.KernelIdeal.Whole

open Cert.KernelIdeal Cert.KernelIdeal.Gen Cert.KernelIdeal.Proj Cert.Projection
open Idealize.ShloMosaic Idealize.ShloMosaic.TcCoe Idealize.ShloMosaic.StableHlo Idealize.SL.Sem

variable (m : (ℓ : Loc nD τ sig) → Buf (Elt Ideal) ℓ) (ρ : Dev nD → PrngReg)

/-- What the result buffer holds after the two last operations: they read the launch's output array. -/
theorem result_eq (c : Dev nD) :
    Pipeline.afterTail₀ cfgs (dats m) 0 (V0 m) [hostOps1] c main_v9 = tailOf (pixels m c) := by
  unfold Pipeline.afterTail₀
  show StableHlo.after hostOps1 _ (Proc.devRef .tc main_v9) = _
  after_results
  rw [show Pipeline.withArrays spec0 c (V0 m c) (fun w => (dats m 0 c).arrAt w cfg0.N) (Proc.devRef .tc main_v7) = pixels m c from
    (Pipeline.withArrays_arr spec0 launch0.win.arr_inj c _ _ 5).trans (final m c)]
  rfl

/-- The kernel's run at the ideal values: the result is the tail of the pixels, the arguments unchanged. -/
theorem run : θ_run defs (onTc (τ := τ) (main (F := Ideal))) ⟨m, fun _ => 0, ρ⟩ (fun r => ∀ c : Dev nD,
      r.2.mem ((c.tc : Thread nD τ).loc main_v9) = tailOf (pixels m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (result_eq m c),
     ((h c).1 0).trans (((dats m 0 c).arrAt_in 0 rfl _).trans ((A_eq m c 0).trans (V_main_arg0 m c))),
     (((h c).2 main_arg1 (Pipeline.mem_restRefs_of main_arg1 (by decide) (by decide))).trans
        (W_of_ne m (dats m) c main_arg1 (by decide) (by decide) (by decide))).trans (V_main_arg1 m c),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     (((h c).2 main_arg5 (Pipeline.mem_restRefs_of main_arg5 (by decide) (by decide))).trans
        (W_of_ne m (dats m) c main_arg5 (by decide) (by decide) (by decide))).trans (V_main_arg5 m c)⟩)
    (run_main m ρ)

end Cert.KernelIdeal.Whole

namespace Cert.ReferenceIdeal.RefValue

open Cert.ReferenceIdeal Cert.ReferenceIdeal.Read Cert.Projection Idealize.ShloMosaic

/-- The reference's result term is the tail of the quotient form of the pixels. -/
theorem result_eq (x0 : SP.Idx → EReal) (x1 : SR.Idx → EReal) (x2 : ST.Idx → EReal) (x3 x4 : SF.Idx → EReal) :
    val_main_v15 (F := Ideal) x0 x1 x2 x3 x4 = tailOf (pixelDiv x0 x1 x2 x3 x4) := by
  unfold val_main_v15 val_main_v14
  rw [stage_eq]
  rfl

end Cert.ReferenceIdeal.RefValue

end
-- ==== Proof.lean ====
/-
  The certificate: a pinhole projection of 2000000 points onto 16 cameras, a tiled kernel against its jnp reference.

  Both compute, for camera n and point p, the camera-frame coordinates R (n) · P (p) + T (n), divide the first two by the
  third (the depth), scale by the focal lengths and add the centres. The kernel does the rotation as one 48 x 3 product
  per tile of 16000 points and multiplies by the reciprocal of the depth where the reference divides by the depth. On the
  extended reals the two agree wherever the depth is not zero; the precondition says every float input is finite and no
  entry of the reference's divisor is zero (the second is the one the proof uses).

  The frames: each program runs to the end from any memory and leaves its six arguments as they were. For the two
  kernel programs that is the launch's run with host operations before and after it; for the reference, a line of host
  operations, it is the run of that line with the result dropped. The kernel's idealization rewrote nothing, so there is
  nothing to preserve. The algebraic claim sets the two runs side by side at one result array.
-/
import proofs.«403066_j19713899889207_3_alg».proof.Defs
import proofs.«403066_j19713899889207_3_alg».proof.Proof.Gen.Kernel
import proofs.«403066_j19713899889207_3_alg».proof.Proof.Gen.KernelIdeal
import proofs.«403066_j19713899889207_3_alg».proof.Proof.Gen.ReferenceIdeal
import proofs.«403066_j19713899889207_3_alg».proof.Proof.Gen.Pre_finite_inputs
import proofs.«403066_j19713899889207_3_alg».proof.Proof.FrameK
import proofs.«403066_j19713899889207_3_alg».proof.Proof.Assemble

noncomputable section

namespace Cert.Proof

open Idealize.ShloMosaic Idealize.SL.Sem Cert.Projection

theorem frame_kernel : Cert.frame_Kernel := fun m ρ _ => Cert.Kernel.Proj.frame m ρ
theorem frame_ideal : Cert.frame_KernelIdeal := fun m ρ _ => Cert.KernelIdeal.Proj.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the tail of the pixels of the kernel's arguments: the
    kernel by its run, the reference because its quotient form is the product form where no depth is zero. -/
theorem algebraic : Cert.algebraic_KernelIdeal_ReferenceIdeal := by
  intro m ρ m' ρ' hpre hagree
  refine ⟨fun c => tailOf (Cert.KernelIdeal.Whole.pixels m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2.1]
  exact congrArg tailOf (pixelDiv_eq_pixelMul _ _ _ _ _
    (Cert.Pre_finite_inputs.Decode.depth_ne_zero _ _ _ _ _ _ (hpre c)))

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
